-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x512 : Shape := ⟨2, ![1, 512]⟩
abbrev S512x1024 : Shape := ⟨2, ![512, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the statement, with no program in sight.

  For a batch matrix X [8192, 4096], a weight matrix W [4096, 4096] and a bias row b [4096], an entry of X is
  MASKED AND BIASED: it becomes X[r, j] + b[j] where X[r, j] ≠ 0 and stays zero elsewhere. The result is the
  rectified product
      G[r, n] = max (∑ j, masked X[r, j] b[j] · W[j, n]) 0.
  The sum over the 4096 columns j is also the sum, over the eight consecutive blocks of 512 columns, of the
  blocks' partial sums: a sum in a commutative monoid may be taken in any grouping, so nothing about the
  summands (not even that they are finite) is needed.
-/
import Mathlib.Algebra.BigOperators.Fin
import Mathlib.Algebra.BigOperators.Intervals
import Mathlib.Data.Fintype.BigOperators
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The zero both programs write as the f32 word 0. -/
abbrev z32 : EReal := Ideal.ofBits .f32 0x00000000#32

theorem z32_eq : z32 = 0 := Ideal.ofBits_zero_f32

theorem z32_add (x : EReal) : z32 + x = x := by rw [z32_eq, zero_add]

/-- An entry `x` masked and biased: `x + b` where `x ≠ 0`, zero elsewhere. -/
def masked (x b : EReal) : EReal := Scalar.select (Ideal.cmp .one x z32) (x + b) z32

/-- The comparison "unordered or different" is, on the extended reals, the comparison "ordered and different". -/
theorem cmp_une (x y : EReal) : Ideal.cmp .une x y = Ideal.cmp .one x y := rfl

/-- The rectified product of the masked, biased batch with the weights. -/
def G (X : (⟨2, ![8192, 4096]⟩ : Shape).Idx → EReal) (W : (⟨2, ![4096, 4096]⟩ : Shape).Idx → EReal)
    (bias : (⟨1, ![4096]⟩ : Shape).Idx → EReal) : (⟨2, ![8192, 4096]⟩ : Shape).Idx → EReal := fun i =>
  max (∑ j : Fin 4096, masked (X (ix2 (i 0) j)) (bias (ix1 j)) * W (ix2 j (i 1))) z32

/-! ## The columns, eight blocks of 512 -/

/-- Column `512·s + l` is column `l` of block `s`. -/
def colEquiv : Fin 8 × Fin 512 ≃ Fin 4096 where
  toFun x := ⟨512 * x.1.val + x.2.val, by have := x.1.isLt; have := x.2.isLt; omega⟩
  invFun j := (⟨j.val / 512, by have := j.isLt; omega⟩, ⟨j.val % 512, Nat.mod_lt _ (by decide)⟩)
  left_inv x := by
    obtain ⟨⟨a, ha⟩, ⟨b, hb⟩⟩ := x
    refine Prod.ext (Fin.ext ?_) (Fin.ext ?_)
    · show (512 * a + b) / 512 = a; omega
    · show (512 * a + b) % 512 = b; omega
  right_inv j := by
    apply Fin.ext
    show 512 * (j.val / 512) + j.val % 512 = j.val
    omega

/-- The column that the `n`-th step of a run of eight steps meets at offset `l`: block `n mod 8`. -/
def colAt (n : Nat) (l : Fin 512) : Fin 4096 :=
  ⟨512 * (n % 8) + l.val, by have := Nat.mod_lt n (show 0 < 8 by decide); have := l.isLt; omega⟩

/-- Eight consecutive steps from a multiple of eight meet every column once: their partial sums add up to the
    whole sum. -/
theorem sum_blocks {β : Type*} [AddCommMonoid β] (f : Fin 4096 → β) (b : Nat) (hb : b % 8 = 0) :
    ∑ s ∈ Finset.range 8, ∑ l : Fin 512, f (colAt (b + s) l) = ∑ j : Fin 4096, f j := by
  rw [Finset.sum_range, ← Equiv.sum_comp colEquiv f, Fintype.sum_prod_type]
  refine Finset.sum_congr rfl fun s _ => Finset.sum_congr rfl fun l _ => congrArg f (Fin.ext ?_)
  show 512 * ((b + s.val) % 8) + l.val = 512 * s.val + l.val
  have := s.isLt
  omega

end Cert.Spec

end
-- ==== Proof.RefValue.lean ====
/-
  The reference, read at an index: entry (r, n) of its result is the rectified sum over the columns j of the
  masked, biased entry X[r, j] times W[j, n] — the specification's `G`. The bias row reaches column j through
  two broadcasts, the mask is the comparison of X with the zero constant, and the rectifier is the maximum with
  a broadcast zero.
-/
import proofs.«175664_j31825707663797_1_alg».proof.Proof.Gen.ReferenceIdeal.Read
import proofs.«175664_j31825707663797_1_alg».proof.Proof.Spec

noncomputable section

namespace Cert.ReferenceIdeal.RefValue

open Cert.ReferenceIdeal Cert.ReferenceIdeal.Read Idealize.ShloMosaic Idealize.ShloMosaic.ValueIdx

/-- The left operand of the product at (r, n), column k, is read at (r, k). -/
theorem lidx_eq (i : S8192x4096.Idx) (k : Fin 4096) : lidx_main_v6 i k = ix2 (i 0) k :=
  funext fun a => Fin.ext (by match a with | ⟨0, _⟩ => rfl | ⟨1, _⟩ => rfl)

/-- The right operand is read at (k, n). -/
theorem ridx_eq (i : S8192x4096.Idx) (k : Fin 4096) : ridx_main_v6 i k = ix2 k (i 1) :=
  funext fun a => Fin.ext (by match a with | ⟨0, _⟩ => rfl | ⟨1, _⟩ => rfl)

/-- The twice-broadcast bias at (r, k) is the bias at k. -/
theorem bidx_eq (r : Fin 8192) (k : Fin 4096) : idx_main_v2 (idx_main_v3 (ix2 r k)) = ix1 k :=
  funext fun a => Fin.ext (by match a with | ⟨0, _⟩ => rfl)

/-- The masked, biased batch at (r, k): the select of the comparison with zero between the biased entry and zero. -/
theorem vals_eq (x0 : (⟨S8192x4096, .f32⟩ : BufTy).Contents (Elt Ideal)) (x2 : (⟨S4096, .f32⟩ : BufTy).Contents (Elt Ideal))
    (r : Fin 8192) (k : Fin 4096) :
    val_main_v5 (F := Ideal) x0 x2 (ix2 r k) = Cert.Spec.masked (x0 (ix2 r k)) (x2 (ix1 k)) := by
  rw [val_main_v5_apply, val_main_v1_apply, val_main_v0_apply, val_main_cst_apply, val_main_v4_apply, val_main_v3_apply,
    val_main_v2_apply, bidx_eq, val_main_call0_v1_apply, val_main_call0_v0_apply, val_main_cst_0_apply]
  rfl

/-- The reference's result is the specification. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v7 (F := Ideal) x0 x1 x2 = Cert.Spec.G x0 x1 x2 := by
  funext i
  rw [val_main_v7_apply, val_main_v6_apply, val_main_call1_v0_apply, val_main_call1_cst_apply]
  rw [Ideal.maximumf_def, Ideal.ofBits_def]
  unfold Cert.Spec.G
  refine congrArg₂ max (Finset.sum_congr rfl fun k _ => ?_) rfl
  rw [lidx_eq, ridx_eq]
  exact congrArg (fun v => v * x1 (ix2 k (i 1))) (vals_eq x0 x2 (i 0) k)

end Cert.ReferenceIdeal.RefValue

end
-- ==== Proof.Pieces.lean ====
/-
  What one run of the body leaves behind, as values.

  The body keeps a running block `acc` [1024, 1024] in a scratch buffer. At the first step of a run of eight it
  stores the zero block and reads it back; at every step it stores `acc + masked(x + b) · w` of the step's three
  input blocks (the store's payload `k0_pay2`); at the last step it also stores the rectified scratch into the
  output block (`k0_pay3`). Each of these stores covers its whole buffer, so what the buffer holds afterwards is
  the last store's payload, and a load of the whole buffer reads it back.
-/
import proofs.«175664_j31825707663797_1_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every store and load of the body is at offset (0, 0) of its buffer. -/
theorem hz : (![0, 0] : Fin 2 → Nat) = fun _ => 0 := funext fun a => by fin_cases a <;> rfl

/-- A middle step: the scratch ends at `acc + masked(x0 + x1) · x2` over what it held. -/
theorem scratch_B (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1x512 .f32) (x2 : Vec F S512x1024 .f32) (xs0 : Vec F S1024x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S1x512) hz, View.ld_unit_zero (S := S512x1024) hz,
    View.ld_unit_zero (S := S1024x1024) hz]

/-- The last step leaves the same in the scratch, -/
theorem scratch_C (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1x512 .f32) (x2 : Vec F S512x1024 .f32) (xs0 : Vec F S1024x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S1x512) hz, View.ld_unit_zero (S := S512x1024) hz,
    View.ld_unit_zero (S := S1024x1024) hz]

/-- and in the output block the rectifier of that scratch, which it loads back after the store. -/
theorem out_C (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1x512 .f32) (x2 : Vec F S512x1024 .f32) (xs0 : Vec F S1024x1024 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.readCov_unit_zero (S := S1024x1024) _ hz,
    View.ld_unit_zero (S := S1024x512) hz, View.ld_unit_zero (S := S1x512) hz, View.ld_unit_zero (S := S512x1024) hz,
    View.ld_unit_zero (S := S1024x1024) hz]

/-- The first step stores the zero block, loads it back, and leaves `0 + masked(x0 + x1) · x2`. -/
theorem scratch_A (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1x512 .f32) (x2 : Vec F S512x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x512) hz, View.ld_unit_zero (S := S1x512) hz, View.ld_unit_zero (S := S512x1024) hz]

end Cert.KernelIdeal.Pieces

end
-- ==== Proof.Payload.lean ====
/-
  The body's arithmetic, read entry by entry on the extended reals.

  With x [1024, 512] a block of the batch, b [1, 512] the matching stretch of the bias row, w [512, 1024] a block
  of the weights and acc [1024, 1024] the running block, the step's store holds at (p, q)
      acc[p, q] + ∑ l < 512, masked x[p, l] b[0, l] · w[l, q] :
  the change of format before the matrix unit is the identity on the extended reals, and the matrix product
  into a zero accumulator is the plain row-by-column sum. The zero block holds the zero word everywhere, and
  the rectifier takes the maximum with it.
-/
import proofs.«175664_j31825707663797_1_alg».proof.Proof.Gen.KernelIdeal.Skeleton
import proofs.«175664_j31825707663797_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The block product's index maps -/

theorem lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into a zero accumulator, at (p, q): row p of the left block against column q of the right. -/
theorem prod_at (L : FVec Ideal S1024x512 .bf16) (R : FVec Ideal S512x1024 .bf16) (p q : Fin 1024) :
    matmul dot_S1024x512_S512x1024_S1024x1024_1_0_0_1_n_n none L R (constant (F := Ideal) S1024x1024 .f32 0x00000000#32) (ix2 p q)
      = ∑ l : Fin 512, L (ix2 p l) * R (ix2 l q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The three payloads -/

/-- The zero block. -/
theorem zero_at (i : S1024x1024.Idx) : k0_pay1 (F := Ideal) i = Cert.Spec.z32 := by
  unfold k0_pay1
  simp only [shapeCast_self]
  rfl

/-- The rectifier. -/
theorem relu_at (v : Vec Ideal S1024x1024 .f32) (i : S1024x1024.Idx) :
    k0_pay3 (F := Ideal) v i = max (v i) Cert.Spec.z32 := by
  unfold k0_pay3
  rfl

/-- One step's store. -/
theorem step_at (x : Vec Ideal S1024x512 .f32) (b : Vec Ideal S1x512 .f32) (w : Vec Ideal S512x1024 .f32)
    (acc : Vec Ideal S1024x1024 .f32) (p q : Fin 1024) :
    k0_pay2 (F := Ideal) x b w acc (ix2 p q)
      = acc (ix2 p q) + ∑ l : Fin 512, Cert.Spec.masked (x (ix2 p l)) (b (ix2 (0 : Fin 1) l)) * w (ix2 l q) := by
  unfold k0_pay2
  simp only [shapeCast_self]
  rw [addf_apply, prod_at]
  refine congrArg _ (Finset.sum_congr rfl fun l _ => ?_)
  rw [truncf_apply, truncf_apply, select_apply, cmpf_apply, addf_apply, broadcast_apply,
    broadcastTo_1b_ab_apply]
  rfl

end Cert.KernelIdeal.Payload

end
-- ==== Proof.Blocks.lean ====
/-
  Where the grid's points read.

  The grid is 8 × 4 × 8: point t has row block t / 32, column block (t / 8) mod 4 and reduction step t mod 8 (the
  last axis moves fastest). At point t the batch window holds rows 1024·(t / 32) … and columns 512·(t mod 8) …, the
  bias window the same 512 columns of the bias row (which the host has laid out as one row of 4096), and the
  weight window rows 512·(t mod 8) … and columns 1024·((t / 8) mod 4) ….
-/
import proofs.«175664_j31825707663797_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The three argument arrays, at their literal types. -/
abbrev Xa (c : Dev nD) : Vec Ideal S8192x4096 .f32 := m ((c : Thread nD τ).loc main_arg0)
abbrev Wa (c : Dev nD) : Vec Ideal S4096x4096 .f32 := m ((c : Thread nD τ).loc main_arg1)
abbrev Ba (c : Dev nD) : Vec Ideal S4096 .f32 := m ((c : Thread nD τ).loc main_arg2)

/-- The windows' block indices at every point, decided over the grid. -/
theorem idx_facts : ∀ t : Fin cfg0.N,
    win0_0.index t (0 : Fin 2) = t.val / 32 ∧ win0_0.index t (1 : Fin 2) = t.val % 8
    ∧ win0_1.index t (0 : Fin 2) = 0 ∧ win0_1.index t (1 : Fin 2) = t.val % 8
    ∧ win0_2.index t (0 : Fin 2) = t.val % 8 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The bias row as the region finds it: the bias laid out as [1, 4096]. -/
theorem bias_row (c : Dev nD) :
    (V m c main_v0 : S1x4096.Idx → Elt Ideal .f32) = shapeCast S1x4096 (Ba m c) shapeCasts_S4096_S1x4096 := by
  dsimp only [Gen.V, Gen.hostOps0]; after_results; rfl

/-- The batch window at point t, entry (p, l). -/
theorem xblk_at (c : Dev nD) (t : Fin cfg0.N) (p : Fin 1024) (l : Fin 512) (r : Fin 8192) (j : Fin 4096)
    (hr : r.val = 1024 * (t.val / 32) + p.val) (hj : j.val = 512 * (t.val % 8) + l.val) :
    (iblk m c 0 t : Vec Ideal S1024x512 .f32) (ix2 p l) = Xa m c (ix2 r j) := by
  obtain ⟨e0, e1, -⟩ := idx_facts t
  unfold iblk
  rw [View.read_apply]
  show V m c main_arg0 _ = _
  rw [V_main_arg0]
  refine congrArg (Xa m c) (funext fun a => Fin.ext ?_)
  match a with
  | ⟨0, _⟩ => show win0_0.index t (0 : Fin 2) * 1024 + 1 * p.val = r.val; omega
  | ⟨1, _⟩ => show win0_0.index t (1 : Fin 2) * 512 + 1 * l.val = j.val; omega

/-- The weight window at point t, entry (l, q). -/
theorem wblk_at (c : Dev nD) (t : Fin cfg0.N) (l : Fin 512) (q : Fin 1024) (j : Fin 4096) (n : Fin 4096)
    (hj : j.val = 512 * (t.val % 8) + l.val) (hn : n.val = 1024 * (t.val / 8 % 4) + q.val) :
    (iblk m c 2 t : Vec Ideal S512x1024 .f32) (ix2 l q) = Wa m c (ix2 j n) := by
  obtain ⟨-, -, -, -, e0, e1, -⟩ := idx_facts t
  unfold iblk
  rw [View.read_apply]
  show V m c main_arg1 _ = _
  rw [V_main_arg1]
  refine congrArg (Wa m c) (funext fun a => Fin.ext ?_)
  match a with
  | ⟨0, _⟩ => show win0_2.index t (0 : Fin 2) * 512 + 1 * l.val = j.val; omega
  | ⟨1, _⟩ => show win0_2.index t (1 : Fin 2) * 1024 + 1 * q.val = n.val; omega

/-- The bias window at point t, entry (0, l). -/
theorem bblk_at (c : Dev nD) (t : Fin cfg0.N) (l : Fin 512) (j : Fin 4096)
    (hj : j.val = 512 * (t.val % 8) + l.val) :
    (iblk m c 1 t : Vec Ideal S1x512 .f32) (ix2 (0 : Fin 1) l) = Ba m c (ix1 j) := by
  obtain ⟨-, -, e0, e1, -⟩ := idx_facts t
  unfold iblk
  rw [View.read_apply]
  show V m c main_v0 _ = _
  rw [bias_row, ← shapeCast_a_1a_apply (Ba m c) shapeCasts_S4096_S1x4096 (0 : Fin 1) j]
  refine congrArg (shapeCast S1x4096 (Ba m c) shapeCasts_S4096_S1x4096) (funext fun a => Fin.ext ?_)
  match a with
  | ⟨0, _⟩ => show win0_1.index t (0 : Fin 2) * 1 + 1 * 0 = 0; omega
  | ⟨1, _⟩ => show win0_1.index t (1 : Fin 2) * 512 + 1 * l.val = j.val; omega

end Cert.KernelIdeal.Blocks

end
-- ==== Proof.Fold.lean ====
/-
  The running block after a whole run of eight steps.

  Fix a point t whose reduction step is the last (t mod 8 = 7). The scratch was reset at point 8·(t / 8) to
  `0 + A` and each of the next seven points added its own `A`, where the addend of point n at block entry (p, q) is
      A n (p, q) = ∑ l < 512, masked X[R, 512·(n mod 8) + l] b[512·(n mod 8) + l] · W[512·(n mod 8) + l, C]
  with R = 1024·(row block) + p and C = 1024·(column block) + q, both the same all along the run. So the scratch
  ends at `0 + ∑ s < 8, A (8·(t / 8) + s)`, the eight blocks of 512 columns make up all 4096, and the output block
  is the rectifier of that: the specification at (R, C).
-/
import proofs.«175664_j31825707663797_1_alg».proof.Proof.Gen.KernelIdeal.Value
import proofs.«175664_j31825707663797_1_alg».proof.Proof.Spec
import proofs.«175664_j31825707663797_1_alg».proof.Proof.Pieces
import proofs.«175664_j31825707663797_1_alg».proof.Proof.Payload
import proofs.«175664_j31825707663797_1_alg».proof.Proof.Blocks

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx
open Cert.KernelIdeal.Blocks (Xa Wa Ba)

variable (m : (ℓ : Loc nD τ sig) → Buf (Elt Ideal) ℓ)

/-- The batch row that entry row `p` of point `n`'s blocks is. -/
def rowAt (n : Nat) (p : Fin 1024) : Fin 8192 :=
  ⟨1024 * (n / 32 % 8) + p.val, by have := Nat.mod_lt (n / 32) (show 0 < 8 by decide); have := p.isLt; omega⟩

/-- The output column that entry column `q` of point `n`'s blocks is. -/
def outColAt (n : Nat) (q : Fin 1024) : Fin 4096 :=
  ⟨1024 * (n / 8 % 4) + q.val, by have := Nat.mod_lt (n / 8) (show 0 < 4 by decide); have := q.isLt; omega⟩

/-- One summand of the product at row `r`, output column `n`: column `j`'s. -/
def term (c : Dev nD) (r : Fin 8192) (n : Fin 4096) (j : Fin 4096) : EReal :=
  Cert.Spec.masked (Xa m c (ix2 r j)) (Ba m c (ix1 j)) * Wa m c (ix2 j n)

/-- Point `n`'s addend at a block entry: the partial sum over the point's 512 columns. -/
def addend (c : Dev nD) (n : Nat) (i : S1024x1024.Idx) : EReal :=
  ∑ l : Fin 512, term m c (rowAt n (i 0)) (outColAt n (i 1)) (Cert.Spec.colAt n l)

/-- A step's store at point `t` over a running block `acc`: `acc` plus the point's addend. -/
theorem step_eq (c : Dev nD) (t : Fin cfg0.N) (acc : Vec Ideal S1024x1024 .f32) (i : S1024x1024.Idx) :
    k0_pay2 (F := Ideal) (iblk m c 0 t) (iblk m c 1 t) (iblk m c 2 t) acc i = acc i + addend m c t.val i := by
  have hN : t.val < 256 := lt_of_lt_of_eq t.isLt (show cfg0.N = 256 from N_0)
  obtain ⟨p, q, rfl⟩ : ∃ (p q : Fin 1024), i = ix2 p q := ⟨i 0, i 1, eq_ix2 i⟩
  refine (Cert.KernelIdeal.Payload.step_at (iblk m c 0 t) (iblk m c 1 t) (iblk m c 2 t) acc p q).trans ?_
  show _ = acc (ix2 p q) + ∑ l : Fin 512, term m c (rowAt t.val p) (outColAt t.val q) (Cert.Spec.colAt t.val l)
  refine congrArg _ (Finset.sum_congr rfl fun l _ => ?_)
  unfold term
  rw [Cert.KernelIdeal.Blocks.xblk_at m c t p l (rowAt t.val p) (Cert.Spec.colAt t.val l) (by show 1024 * (t.val / 32 % 8) + p.val = _; omega) rfl,
    Cert.KernelIdeal.Blocks.bblk_at m c t l (Cert.Spec.colAt t.val l) rfl,
    Cert.KernelIdeal.Blocks.wblk_at m c t l q (Cert.Spec.colAt t.val l) (outColAt t.val q) rfl rfl]

/-- At a point that opens a run the scratch ends at the step over the zero block, whatever it held. -/
theorem scAt_first (c : Dev nD) (n : ℕ) (hb : n < cfg0.N) (h0 : n % 8 = 0) (acc : Vec Ideal S1024x1024 .f32) :
    scAt0_0 m c n hb acc = k0_pay2 (F := Ideal) (iblk m c 0 (⟨n, hb⟩ : Fin cfg0.N)) (iblk m c 1 (⟨n, hb⟩ : Fin cfg0.N)) (iblk m c 2 (⟨n, hb⟩ : Fin cfg0.N)) (k0_pay1 (F := Ideal)) := by
  have h1 : ¬n % 8 = 7 := by omega
  unfold scAt0_0
  rw [dif_pos h0, dif_neg h1]
  exact Cert.KernelIdeal.Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every other point it ends at the step over what the point before left. -/
theorem scAt_later (c : Dev nD) (n : ℕ) (hb : n < cfg0.N) (h0 : ¬n % 8 = 0) (acc : Vec Ideal S1024x1024 .f32) :
    scAt0_0 m c n hb acc = k0_pay2 (F := Ideal) (iblk m c 0 (⟨n, hb⟩ : Fin cfg0.N)) (iblk m c 1 (⟨n, hb⟩ : Fin cfg0.N)) (iblk m c 2 (⟨n, hb⟩ : Fin cfg0.N)) acc := by
  unfold scAt0_0
  rw [dif_neg h0]
  by_cases h1 : n % 8 = 7
  · rw [dif_pos h1]
    exact Cert.KernelIdeal.Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact Cert.KernelIdeal.Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- The scratch after the last point of a run: zero plus the whole sum over the 4096 columns. -/
theorem scratch_at (c : Dev nD) (t : Fin cfg0.N) (h7 : t.val % 8 = 7) (i : S1024x1024.Idx) :
    (outsAt0 m c t.val t.isLt).2 i
      = Cert.Spec.z32 + ∑ j : Fin 4096, term m c (rowAt t.val (i 0)) (outColAt t.val (i 1)) j := by
  have hN : t.val < 256 := lt_of_lt_of_eq t.isLt (show cfg0.N = 256 from N_0)
  have hb0 : 8 * (t.val / 8) % 8 = 0 := by omega
  rw [soutsAt0_0_eq m c t]
  have key := Pipeline.accAt_add_apply (N := cfg0.N) (fun n h => scAt0_0 m c n h (VS0_0.read (Elt Ideal) VS0_0.junk)) (scAt0_0 m c)
    (fun _ => Cert.Spec.z32) (addend m c) (8 * (t.val / 8)) 7
    (fun h i => by
      show scAt0_0 m c (8 * (t.val / 8)) h _ i = _
      rw [scAt_first m c _ h hb0]
      refine (step_eq m c ⟨8 * (t.val / 8), h⟩ (k0_pay1 (F := Ideal)) i).trans ?_
      rw [Cert.KernelIdeal.Payload.zero_at])
    (fun n h acc i hlo hhi => by
      rw [scAt_later m c n h (by omega) acc]
      exact step_eq m c ⟨n, h⟩ acc i)
  have e : ∀ (j : ℕ) (hj : j = 7) (h : 8 * (t.val / 8) + j < cfg0.N),
      Pipeline.accAt (fun n h => scAt0_0 m c n h (VS0_0.read (Elt Ideal) VS0_0.junk)) (scAt0_0 m c) (8 * (t.val / 8)) j h i
        = Cert.Spec.z32 + ∑ s ∈ Finset.range 8, addend m c (8 * (t.val / 8) + s) i := by
    intro j hj h; subst hj; exact key 7 le_rfl h i
  rw [e _ h7]
  refine congrArg _ ?_
  rw [← Cert.Spec.sum_blocks (fun j => term m c (rowAt t.val (i 0)) (outColAt t.val (i 1)) j) (8 * (t.val / 8)) hb0]
  refine Finset.sum_congr rfl fun s hs => ?_
  have hs8 : s < 8 := Finset.mem_range.mp hs
  have e1 : rowAt (8 * (t.val / 8) + s) (i 0) = rowAt t.val (i 0) :=
    Fin.ext (by show 1024 * ((8 * (t.val / 8) + s) / 32 % 8) + (i 0).val = 1024 * (t.val / 32 % 8) + (i 0).val; omega)
  have e2 : outColAt (8 * (t.val / 8) + s) (i 1) = outColAt t.val (i 1) :=
    Fin.ext (by show 1024 * ((8 * (t.val / 8) + s) / 8 % 4) + (i 1).val = 1024 * (t.val / 8 % 4) + (i 1).val; omega)
  unfold addend
  rw [e1, e2]

/-- The output block after the last point of a run: the specification at the block's place. -/
theorem out_at (c : Dev nD) (t : Fin cfg0.N) (h7 : t.val % 8 = 7) (i : S1024x1024.Idx) :
    (outsAt0 m c t.val t.isLt).1 i
      = Cert.Spec.G (Xa m c) (Wa m c) (Ba m c) (ix2 (rowAt t.val (i 0)) (outColAt t.val (i 1))) := by
  have h0 : ¬t.val % 8 = 0 := by omega
  have e : (outsAt0 m c t.val t.isLt).1 = k0_pay3 (F := Ideal) ((outsAt0 m c t.val t.isLt).2) := by
    rw [outsAt0_C m c t h0 h7]
    dsimp only
    exact (Cert.KernelIdeal.Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _).trans
      (congrArg (k0_pay3 (F := Ideal)) (Cert.KernelIdeal.Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _).symm)
  rw [e, Cert.KernelIdeal.Payload.relu_at, scratch_at m c t h7 i, Cert.Spec.z32_add]
  rfl

end Cert.KernelIdeal.Fold

end
-- ==== Proof.KernelValue.lean ====
/-
  The kernel's result array after the run.

  The output window is written back at the last step of each run of eight points, and only there. What it writes
  at such a point t is the block of the specification at row block t / 32 and column block (t / 8) mod 4; the 32
  row-and-column blocks tile the [8192, 4096] array, entry (r, n) lying in the block written at point
  32·(r / 1024) + 8·(n / 1024) + 7. So the array ends at the specification everywhere.
-/
import proofs.«175664_j31825707663797_1_alg».proof.Proof.Fold

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.KernelIdeal.Blocks (Xa Wa Ba)

variable (m : (ℓ : Loc nD τ sig) → Buf (Elt Ideal) ℓ) (ρ : Dev nD → PrngReg)

/-- The specification of the three argument arrays. -/
abbrev result (c : Dev nD) : S8192x4096.Idx → Elt Ideal .f32 := Cert.Spec.G (Xa m c) (Wa m c) (Ba m c)

/-- What a writing point writes back is its block of the specification. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 256 := lt_of_lt_of_eq t.isLt (show cfg0.N = 256 from N_0)
  obtain ⟨-, -, -, -, -, -, e0, e1⟩ := Cert.KernelIdeal.Blocks.idx_facts t
  rw [flushed3]
  funext j
  show (outsAt0 m c t.val t.isLt).1 j = result m c (((cfg0.win 3).blk t).view.emb j)
  refine (Cert.KernelIdeal.Fold.out_at m c t h7 j).trans (congrArg (result m c) (funext fun a => Fin.ext ?_))
  match a with
  | ⟨0, _⟩ => show 1024 * (t.val / 32 % 8) + (j 0).val = win0_3.index t (0 : Fin 2) * 1024 + 1 * (j 0).val; omega
  | ⟨1, _⟩ => show 1024 * (t.val / 8 % 4) + (j 1).val = win0_3.index t (1 : Fin 2) * 1024 + 1 * (j 1).val; omega

/-- An entry of the array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry is written by the last point of its block's run. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, -, -, e0, e1⟩ := Cert.KernelIdeal.Blocks.idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run is the specification. -/
theorem final (c : Dev nD) : (dats m 0 c).arrAt 3 cfg0.N = result m c :=
  (dats m 0 c).arrAt_eq_of_cover 3 (result m c) (flushed_eq m c) cover

/-- The run, with the result array at the specification and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.lean ====
/-
  The kernel computes, for a batch X [8192, 4096], weights W [4096, 4096] and a bias row b [4096],
      out[r, n] = max (∑ j, masked X[r, j] b[j] · W[j, n]) 0,      masked x b = x + b where x ≠ 0, else 0,
  by a grid of 8 × 4 row-and-column blocks of 1024 × 1024, each accumulated in a scratch block over eight steps
  of 512 columns of X (and rows of W) and rectified into the output at the last step. The reference computes the
  same entry as one product of the masked, biased batch with the weights, then the rectifier.

  On the extended reals the two agree entry by entry: the change of float format before the matrix unit is the
  identity, the block products and the host's product are plain sums, and a sum over 4096 columns is the sum of
  its eight partial sums over 512 columns in any commutative monoid — no finiteness of the inputs is used.

  Proof/Spec.lean states the result as one function and proves the regrouping of the sum; Proof/RefValue.lean
  reads the reference's operations at an index; Proof/Pieces.lean, Proof/Payload.lean and Proof/Blocks.lean read
  one step of the kernel (what its stores leave, its arithmetic at an entry, which entries its windows hold);
  Proof/Fold.lean adds up a run of eight steps; Proof/KernelValue.lean tiles the result array with the 32 output
  blocks. The three frames are the programs' runs with the results dropped; the idealization rewrote nothing.
-/
import proofs.«175664_j31825707663797_1_alg».proof.Defs
import proofs.«175664_j31825707663797_1_alg».proof.Proof.Gen.Kernel
import proofs.«175664_j31825707663797_1_alg».proof.Proof.Gen.Kernel.Skeleton
import proofs.«175664_j31825707663797_1_alg».proof.Proof.Gen.Kernel.Launch
import proofs.«175664_j31825707663797_1_alg».proof.Proof.Gen.Kernel.Points
import proofs.«175664_j31825707663797_1_alg».proof.Proof.Gen.Kernel.Frame
import proofs.«175664_j31825707663797_1_alg».proof.Proof.Gen.KernelIdeal
import proofs.«175664_j31825707663797_1_alg».proof.Proof.Gen.KernelIdeal.Skeleton
import proofs.«175664_j31825707663797_1_alg».proof.Proof.Gen.KernelIdeal.Launch
import proofs.«175664_j31825707663797_1_alg».proof.Proof.Gen.KernelIdeal.Points
import proofs.«175664_j31825707663797_1_alg».proof.Proof.Gen.KernelIdeal.Frame
import proofs.«175664_j31825707663797_1_alg».proof.Proof.Gen.KernelIdeal.Value
import proofs.«175664_j31825707663797_1_alg».proof.Proof.Gen.ReferenceIdeal
import proofs.«175664_j31825707663797_1_alg».proof.Proof.Gen.ReferenceIdeal.Run
import proofs.«175664_j31825707663797_1_alg».proof.Proof.Gen.ReferenceIdeal.Read
import proofs.«175664_j31825707663797_1_alg».proof.Proof.Gen.Pre_finite_inputs
import proofs.«175664_j31825707663797_1_alg».proof.Proof.RefValue
import proofs.«175664_j31825707663797_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
